-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S1048576 : Shape := ⟨1, ![1048576]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg3 : IVec S1048576 32) (main_v12 : IVec S_ 1) (main_v14 : IVec S1048576 1) (main_v15 : IVec S1048576 32) : IVec S_ 1 :=
  let main_v16 : IVec S1048576 1 := cmpi .slt main_arg3 main_v15
  let main_v17 : IVec S1048576 1 := andi main_v14 main_v16
  let main_c_6 : IVec S_ 1 := constantI S_ 1 1#1
  let main_v18 : IVec S_ 1 := (fun x v => Host.reduce IntOp.andi x v reducesTo_S1048576_S_d0 h_S_) main_v17 main_c_6
  let main_v19 : IVec S_ 1 := andi main_v12 main_v18
  main_v19

def fn {F : FTy → Type} [FloatOps F] (main_arg0 : FVec F S128x4096 .f32) (main_arg1 : FVec F S1048576 .f32) (main_arg2 : IVec S1048576 32) (main_arg3 : IVec S1048576 32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg2 main_v9
  let main_c_3 : IVec S_ 1 := constantI S_ 1 1#1
  let main_v11 : IVec S_ 1 := (fun x v => Host.reduce IntOp.andi x v reducesTo_S1048576_S_d0 h_S_) main_v10 main_c_3
  let main_v12 : IVec S_ 1 := andi main_v8 main_v11
  let main_c_4 : IVec S_ 32 := constantI S_ 32 0#32
  let main_v13 : IVec S1048576 32 := broadcastInDim S1048576 ![] bcast_S_S1048576 main_c_4
  let main_v14 : IVec S1048576 1 := cmpi .sge main_arg3 main_v13
  let main_c_5 : IVec S_ 32 := constantI S_ 32 4096#32
  let main_v15 : IVec S1048576 32 := broadcastInDim S1048576 ![] bcast_S_S1048576 main_c_5
  fn_part1 (F := F) main_arg3 main_v12 main_v14 main_v15
-- ==== Kernel.lean ====
abbrev S128x4096 : Shape := ⟨2, ![128, 4096]⟩
abbrev S1048576 : Shape := ⟨1, ![1048576]⟩
abbrev S_ : Shape := ⟨0, ![]⟩
abbrev S4096x4096 : Shape := ⟨2, ![4096, 4096]⟩
abbrev S1048576x1 : Shape := ⟨2, ![1048576, 1]⟩
abbrev S1048576x2 : Shape := ⟨2, ![1048576, 2]⟩
abbrev S1024x4096 : Shape := ⟨2, ![1024, 4096]⟩
abbrev S128x1024 : Shape := ⟨2, ![128, 1024]⟩

abbrev nBuf : Space → Nat
  | .hbm => 27
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S1048576, .f32⟩
  | .hbm, ⟨2, _⟩ => ⟨S1048576, .i32⟩
  | .hbm, ⟨3, _⟩ => ⟨S1048576, .i32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x1, .i32⟩
  | .hbm, ⟨22, _⟩ => ⟨S1048576x2, .i32⟩
  | .hbm, ⟨23, _⟩ => ⟨S4096x4096, .f32⟩
  | .hbm, ⟨24, _⟩ => ⟨S4096x4096, .bf16⟩
  | .hbm, ⟨25, _⟩ => ⟨S128x4096, .bf16⟩
  | .hbm, ⟨26, _⟩ => ⟨S128x4096, .f32⟩
  | .local _ .vmem, ⟨0, _⟩ => ⟨S128x4096, .bf16⟩
  | .local _ .vmem, ⟨1, _⟩ => ⟨S1024x4096, .bf16⟩
  | .local _ .vmem, ⟨2, _⟩ => ⟨S1024x4096, .bf16⟩
  | .local _ .vmem, ⟨3, _⟩ => ⟨S128x1024, .f32⟩
  | .local _ .vmem, ⟨4, _⟩ => ⟨S128x1024, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096x4096 : S_.BroadcastsInDim S4096x4096 (![] : Fin 0 → Fin S4096x4096.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x1024_S128x1024_0_0 : ∀ a, (![0, 0] : Fin 2 → Nat) a + S128x1024.size a ≤ S128x1024.size a
  h_S128x1024 : 0 < S128x1024.numel
  scatter_S4096x4096_S1048576x2_S1048576_n_01_01_1_wf : ScatterDims.WF S4096x4096 S1048576x2 S1048576 [] [0, 1] [0, 1] 1
  dot_S128x4096_S1024x4096_S128x1024_1_1_0_0_n_n_wf : DotDims.WF S128x4096 S1024x4096 S128x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .bf16 = 32 ∨ (Rect.block (s := S128x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .f32 = 32 ∨ (Rect.block (s := S128x4096) S128x1024.size (cc0_transform_2 i) (hinb0_2 i)).WholeWords (EltTy.packing .f32)

variable [Facts₀]

def scatter_S4096x4096_S1048576x2_S1048576_n_01_01_1 : ScatterDims S4096x4096 S1048576x2 S1048576 where
  updateWindowDims := []
  insertedWindowDims := [0, 1]
  scatterDimsToOperandDims := [0, 1]
  indexVectorDim := 1
  wf := scatter_S4096x4096_S1048576x2_S1048576_n_01_01_1_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf

abbrev win0_0 : Pipeline.Window sig grid0 :=
  Pipeline.Window.ofSpec (Memref.whole main_v16) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x4096 : Shape := ⟨2, ![128, 4096]⟩
abbrev S1048576 : Shape := ⟨1, ![1048576]⟩
abbrev S4096x128 : Shape := ⟨2, ![4096, 128]⟩
abbrev S_ : Shape := ⟨0, ![]⟩
abbrev S1048576x1 : Shape := ⟨2, ![1048576, 1]⟩
abbrev S1048576x128 : Shape := ⟨2, ![1048576, 128]⟩

abbrev nBuf : Space → Nat
  | .hbm => 22
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S1048576, .f32⟩
  | .hbm, ⟨2, _⟩ => ⟨S1048576, .i32⟩
  | .hbm, ⟨3, _⟩ => ⟨S1048576, .i32⟩
  | .hbm, ⟨4, _⟩ => ⟨S4096x128, .f32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S1048576x128, .f32⟩
  | .hbm, ⟨14, _⟩ => ⟨S1048576x1, .f32⟩
  | .hbm, ⟨15, _⟩ => ⟨S1048576x128, .f32⟩
  | .hbm, ⟨16, _⟩ => ⟨S1048576x128, .f32⟩
  | .hbm, ⟨17, _⟩ => ⟨S_, .f32⟩
  | .hbm, ⟨18, _⟩ => ⟨S4096x128, .f32⟩
  | .hbm, ⟨19, _⟩ => ⟨S1048576x1, .i32⟩
  | .hbm, ⟨20, _⟩ => ⟨S4096x128, .f32⟩
  | .hbm, ⟨21, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S128x4096_S4096x128_1_0 : S128x4096.Transposes [1, 0] S4096x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S_S4096x128 : S_.BroadcastsInDim S4096x128 (![] : Fin 0 → Fin S4096x128.rank)
  transposes_S4096x128_S128x4096_1_0 : S4096x128.Transposes [1, 0] S128x4096
  gather_S4096x128_S1048576x1_S1048576x128_1_0_n_n_0_1_1128_wf : GatherDims.WF S4096x128 S1048576x1 S1048576x128 [1] [0] [] [0] [] 1 ![1, 128]
  scatter_S4096x128_S1048576x1_S1048576x128_1_0_0_1_wf : ScatterDims.WF S4096x128 S1048576x1 S1048576x128 [1] [0] [0] 1

variable [Facts₀]

def gather_S4096x128_S1048576x1_S1048576x128_1_0_n_n_0_1_1128 : GatherDims S4096x128 S1048576x1 S1048576x128 where
  offsetDims := [1]
  collapsedSliceDims := [0]
  operandBatchingDims := []
  startIndicesBatchingDims := []
  startIndexMap := [0]
  indexVectorDim := 1
  sliceSizes := ![1, 128]
  wf := gather_S4096x128_S1048576x1_S1048576x128_1_0_n_n_0_1_1128_wf
def scatter_S4096x128_S1048576x1_S1048576x128_1_0_0_1 : ScatterDims S4096x128 S1048576x1 S1048576x128 where
  updateWindowDims := [1]
  insertedWindowDims := [0]
  scatterDimsToOperandDims := [0]
  indexVectorDim := 1
  wf := scatter_S4096x128_S1048576x1_S1048576x128_1_0_0_1_wf

class Facts : Prop extends Facts₀ where

variable [Facts]
-- ==== Proof.PreRead.lean ====
/-
  The precondition "all inputs are finite and all indices are in range", decoded.

  The precondition is a function of the four inputs: a dense matrix X (128 × 4096 floats), and a sparse matrix
  in coordinate form: 1048576 values, row indices and column indices. It is the conjunction of four "for all" statements,
  each an and-reduction of a mask of one-bit words over a whole array:

    |X[i]| < +∞ for every entry of X;   |vals[j]| < +∞ for every stored value;
    rows[j] ≥ 0 (as a signed word);     cols[j] ≥ 0 and cols[j] < 4096 (as signed words).

  Over the extended reals, |x| < +∞ says exactly that x is neither +∞ nor -∞, that is, x is a real number. So from
  "the precondition is 1" we get: X and the values are arrays of REAL numbers (there is a real-valued function
  they are the image of), every row index is a non-negative integer, and every column index is an integer in [0, 4096).

  The reading goes one element at a time: a conjunction of bits that is 1 has both bits 1; an and-reduction over all axes
  that is 1 had a 1 at every index; the mask at an index is the comparison of that element with the (broadcast) constant.
-/
import proofs.«423321_j53515292508416_3_alg».proof.Pre_finite_inputs
import proofs.«423321_j53515292508416_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Idealize.ShloMosaic

/-- The scalar shape has exactly one index. -/
instance : Subsingleton Cert.Pre_finite_inputs.S_.Idx := ⟨fun a b => funext fun d => d.elim0⟩

/-! ## One element: what a comparison bit equal to 1 says -/

/-- An extended real whose absolute value max(x, -x) is strictly below +∞ is a real number:
    at x = +∞ the maximum is +∞, at x = -∞ the maximum is -(-∞) = +∞, and neither is below +∞. -/
theorem real_of_abs_lt_inf (x : Ideal .f32)
    (h : FloatOps.cmpf .olt (FloatOps.hostAbsf x) (FloatOps.ofBits (F := Ideal) .f32 0x7F800000#32) = 1#1) :
    ∃ r : ℝ, x = ((r : ℝ) : EReal) := by
  -- the pattern 0x7F800000 (sign 0, exponent all ones, fraction 0) denotes +∞
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff] at h
  simp only [decide_eq_true_eq] at h
  induction x using EReal.rec with
  | bot => simp at h
  | coe r => exact ⟨r, rfl⟩
  | top => simp at h

/-- A word that is signed-greater-or-equal to the zero word is a non-negative integer. -/
theorem nonneg_of_sge (a : BitVec 32) (h : IntOp.cmpi .sge a 0#32 = 1#1) : 0 ≤ a.toInt := by
  unfold IntOp.cmpi at h
  rw [StableHlo.Predicate.ofBool_eq_one_iff] at h
  simp only [BitVec.sle, decide_eq_true_eq] at h
  have h0 : (0#32 : BitVec 32).toInt = 0 := by decide
  omega

/-- A word that is signed-less than the word 4096 is an integer below 4096. -/
theorem lt_of_slt (a : BitVec 32) (h : IntOp.cmpi .slt a 4096#32 = 1#1) : a.toInt < 4096 := by
  unfold IntOp.cmpi at h
  rw [StableHlo.Predicate.ofBool_eq_one_iff] at h
  simp only [BitVec.slt, decide_eq_true_eq] at h
  have h0 : (4096#32 : BitVec 32).toInt = 4096 := by decide
  omega

/-- The elementwise "and" of two arrays of words, read at an index. -/
theorem andi_at {s : Shape} {w : Nat} (x y : IVec s w) (i : s.Idx) : andi x y i = IntOp.andi (x i) (y i) := rfl

/-! ## The four conjuncts, as bits -/

open Cert.Pre_finite_inputs Cert.Pre_finite_inputs.Gen in
/-- The precondition equal to 1 gives, at every index of each array, the comparison bit of that element equal to 1. -/
theorem bits_of_pre (X : FVec Ideal S128x4096 .f32) (v : FVec Ideal S1048576 .f32) (rows cols : IVec S1048576 32)
    (h : Cert.Pre_finite_inputs.fn (F := Ideal) X v rows cols = fun _ => 1#1) :
    (∀ i : S128x4096.Idx,
      FloatOps.cmpf .olt (FloatOps.hostAbsf (X i)) (FloatOps.ofBits (F := Ideal) .f32 0x7F800000#32) = 1#1) ∧
    (∀ j : S1048576.Idx,
      FloatOps.cmpf .olt (FloatOps.hostAbsf (v j)) (FloatOps.ofBits (F := Ideal) .f32 0x7F800000#32) = 1#1) ∧
    (∀ j : S1048576.Idx, IntOp.cmpi .sge (rows j) 0#32 = 1#1) ∧
    (∀ j : S1048576.Idx, IntOp.cmpi .sge (cols j) 0#32 = 1#1 ∧ IntOp.cmpi .slt (cols j) 4096#32 = 1#1) := by
  -- the one entry of the scalar result
  have h0 := congrFun h ValueIdx.ix0
  dsimp only [Cert.Pre_finite_inputs.fn, Cert.Pre_finite_inputs.fn_part1] at h0
  -- the result is ((allX ∧ allV) ∧ allRows) ∧ allCols, on bits
  rw [andi_at, andi_at, andi_at] at h0
  obtain ⟨h123, hC⟩ := IntOp.andi_eq_one.1 h0
  obtain ⟨h12, hR⟩ := IntOp.andi_eq_one.1 h123
  obtain ⟨hX, hV⟩ := IntOp.andi_eq_one.1 h12
  refine ⟨fun i => ?_, fun j => ?_, fun j => ?_, fun j => ?_⟩
  · exact Host.reduce_andi_all _ _ _ _ _ hX i
  · exact Host.reduce_andi_all _ _ _ _ _ hV j
  · exact Host.reduce_andi_all _ _ _ _ _ hR j
  · have e := Host.reduce_andi_all _ _ _ _ _ hC j
    rw [andi_at] at e
    exact IntOp.andi_eq_one.1 e

/-! ## The decoded precondition -/

open Cert.Pre_finite_inputs Cert.Pre_finite_inputs.Gen in
/-- If the precondition holds (its one bit is 1) then the dense matrix and the stored values are arrays of real numbers,
    every row index is non-negative and every column index lies in [0, 4096). -/
theorem of_pre (X : FVec Ideal S128x4096 .f32) (v : FVec Ideal S1048576 .f32) (rows cols : IVec S1048576 32)
    (h : Cert.Pre_finite_inputs.fn (F := Ideal) X v rows cols = fun _ => 1#1) :
    (∃ x : S128x4096.Idx → ℝ, X = fun i => ((x i : ℝ) : EReal)) ∧
    (∃ u : S1048576.Idx → ℝ, v = fun i => ((u i : ℝ) : EReal)) ∧
    (∀ j : S1048576.Idx, 0 ≤ (rows j).toInt) ∧
    (∀ j : S1048576.Idx, 0 ≤ (cols j).toInt ∧ (cols j).toInt < 4096) := by
  obtain ⟨bX, bV, bR, bC⟩ := bits_of_pre X v rows cols h
  refine ⟨?_, ?_, fun j => nonneg_of_sge _ (bR j), fun j => ⟨nonneg_of_sge _ (bC j).1, lt_of_slt _ (bC j).2⟩⟩
  · -- choose, entry by entry, the real number the entry is
    have hx : ∀ i : S128x4096.Idx, ∃ r : ℝ, X i = ((r : ℝ) : EReal) := fun i => real_of_abs_lt_inf (X i) (bX i)
    choose x hx using hx
    exact ⟨x, funext hx⟩
  · have hu : ∀ j : S1048576.Idx, ∃ r : ℝ, v j = ((r : ℝ) : EReal) := fun j => real_of_abs_lt_inf (v j) (bV j)
    choose u hu using hu
    exact ⟨u, funext hu⟩

end Cert.PreRead

end
-- ==== Proof.LibScatterRows.lean ====
/-
  The host's accumulating scatter and its row gather, read at one index, over the extended reals.

  An accumulating scatter adds to each element of its operand the sum of the update elements that land on it. An update
  element lands on the element whose coordinate, on every axis, is the update's start (an entry of the index array read
  as a SIGNED integer, and not clamped) plus its window coordinate; when that point is outside the operand on some axis
  the update is dropped. `resultIdx?_eq_some_iff` says this for any dimension numbers: landing on `i` is the system of
  equations "start + window = coordinate of `i`", one per axis, the range conditions being `i`'s own.

  Two shapes of dimension numbers are then solved, for sizes that are variables.
  * POINTS: updates `[N]`, index pairs `[N, 2]`, operand `[A, B]`. Update `j` lands on `(p, q)` iff its pair is
    `(p, q)`, so element `(p, q)` of the result is `x (p, q) + ∑ {j | pair j = (p, q)} upd j`
    (`scatterAdd_point_apply`).
  * ROWS: updates `[N, C]`, row indices `[N, 1]`, operand `[A, C]`. Element `(j, b')` of the updates lands on
    `(p, b)` iff row `j`'s index is `p` and `b' = b`, so element `(p, b)` of the result is
    `x (p, b) + ∑ {j | index j = p} upd (j, b)` (`scatterAdd_rows_apply`): the sum over update elements collapses
    onto column `b`.
  Last, the gather that takes rows of a table `[A, C]` at indices `[N, 1]`: element `(j, b)` of the result is the table
  at row `min (index j)⁺ (A − 1)` and column `b`, the index read signed and clamped into the table (`gather_rows_apply`).
-/
import Idealize.ShloMosaic.PureOps.Ideal
import Idealize.ShloMosaic.Lib.ValueIdx

noncomputable section

open scoped BigOperators

namespace Cert.ScatterRows

open Idealize.ShloMosaic Idealize.ShloMosaic.ValueIdx

/-- An update lands on element `i` exactly when, on every axis, its signed start plus its window coordinate
    is `i`'s coordinate: the range conditions are then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have hi := congrFun (Option.some.inj h) a
      have hv := congrArg Fin.val hi
      simp only at hv
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    have := h a
    simp only
    omega

/-! ## One scalar update per index pair -/

/-- one scalar update per index pair: updates [N], indices [N,2] (index vector on axis 1), operand [A,B] -/
abbrev pointDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ := ⟨[], [0, 1], [0, 1], 1, wf⟩

section Point
variable {A B N w : Nat} (wf : ScatterDims.WF ⟨2, ![A, B]⟩ ⟨2, ![N, 2]⟩ ⟨1, ![N]⟩ [] [0, 1] [0, 1] 1)

/-- Update `j` reads component `k` of its index pair at position `(j, k)` of the index array. -/
theorem point_siIdx (j : Fin N) (c : Fin (pointDims A B N wf).scatterDimsToOperandDims.length) (k : Fin 2)
    (hc : c.val = k.val) : (pointDims A B N wf).siIdx (ix1 j) c = ix2 j k := by
  funext b; refine Fin.ext ?_
  match b with
  | ⟨0, _⟩ => rfl
  | ⟨1, _⟩ => exact hc

/-- On the operand's first axis the start is the pair's first component, read signed. -/
theorem point_start0 (idx : IVec ⟨2, ![N, 2]⟩ w) (j : Fin N) :
    (pointDims A B N wf).start (ix1 j) idx (0 : Fin 2) = (idx (ix2 j (0 : Fin 2))).toInt := by
  unfold ScatterDims.start
  rw [dif_pos (show (0 : Fin 2) ∈ (pointDims A B N wf).scatterDimsToOperandDims from List.mem_cons_self)]
  rw [point_siIdx wf j _ (0 : Fin 2)]
  rfl

/-- On the operand's second axis the start is the pair's second component, read signed. -/
theorem point_start1 (idx : IVec ⟨2, ![N, 2]⟩ w) (j : Fin N) :
    (pointDims A B N wf).start (ix1 j) idx (1 : Fin 2) = (idx (ix2 j (1 : Fin 2))).toInt := by
  unfold ScatterDims.start
  rw [dif_pos (show (1 : Fin 2) ∈ (pointDims A B N wf).scatterDimsToOperandDims from List.mem_cons_of_mem _ List.mem_cons_self)]
  rw [point_siIdx wf j _ (1 : Fin 2)]
  rfl

/-- Both operand axes are inserted: a scalar update has no window coordinate. -/
theorem point_window (j : (⟨1, ![N]⟩ : Shape).Idx) (a : Fin 2) : (pointDims A B N wf).window j a = 0 := by
  unfold ScatterDims.window
  rw [dif_neg (show a ∉ (pointDims A B N wf).sKept from by
    have : (pointDims A B N wf).sKept = [] := rfl
    rw [this]; exact List.not_mem_nil)]

/-- Update `j` lands on `(p, q)` exactly when its index pair, read signed, is `(p, q)`. -/
theorem point_resultIdx?_iff (idx : IVec ⟨2, ![N, 2]⟩ w) (j : Fin N) (p : Fin A) (q : Fin B) :
    (pointDims A B N wf).resultIdx? (ix1 j) idx = some (ix2 p q)
      ↔ (idx (ix2 j (0 : Fin 2))).toInt = (p.val : Int) ∧ (idx (ix2 j (1 : Fin 2))).toInt = (q.val : Int) := by
  rw [resultIdx?_eq_some_iff, Fin.forall_fin_two, point_start0, point_start1, point_window, point_window]
  simp only [Nat.cast_zero, add_zero]

end Point

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE POINT SCATTER READ AT `(p, q)`: the operand's element plus the sum of the updates whose index pair, read
    signed, is `(p, q)`; an update whose pair is outside the operand is in no such sum. -/
theorem scatterAdd_point_apply {A B N w : Nat} {φ : FTy} (wf : ScatterDims.WF ⟨2, ![A, B]⟩ ⟨2, ![N, 2]⟩ ⟨1, ![N]⟩ [] [0, 1] [0, 1] 1)
    (x : FVec Ideal ⟨2, ![A, B]⟩ φ) (idx : IVec ⟨2, ![N, 2]⟩ w) (upd : FVec Ideal ⟨1, ![N]⟩ φ) (p : Fin A) (q : Fin B) :
    Host.scatterAdd (pointDims A B N wf) x idx upd (ix2 p q)
      = x (ix2 p q) + ∑ j ∈ Finset.univ.filter (fun j : Fin N => (idx (ix2 j (0 : Fin 2))).toInt = (p.val : Int) ∧ (idx (ix2 j (1 : Fin 2))).toInt = (q.val : Int)), upd (ix1 j) := by
  show Ideal.hostScatterAdd (pointDims A B N wf) x idx upd (ix2 p q) = _
  unfold Ideal.hostScatterAdd
  congr 1
  refine Finset.sum_equiv idxEquiv1 ?_ ?_
  · intro j'
    obtain ⟨j, rfl⟩ : ∃ j, j' = ix1 j := ⟨j' 0, eq_ix1 j'⟩
    simp only [Finset.mem_filter, Finset.mem_univ, true_and]
    exact point_resultIdx?_iff wf idx j p q
  · intro j' _
    exact congrArg upd (eq_ix1 j')

/-! ## One row update per index -/

/-- one row update per index: updates [N,C] (window axis 1), indices [N,1] (index vector on axis 1), operand [A,C], rows inserted on axis 0 -/
abbrev rowDims (A C N : Nat) (wf : ScatterDims.WF ⟨2, ![A, C]⟩ ⟨2, ![N, 1]⟩ ⟨2, ![N, C]⟩ [1] [0] [0] 1) :
    ScatterDims ⟨2, ![A, C]⟩ ⟨2, ![N, 1]⟩ ⟨2, ![N, C]⟩ := ⟨[1], [0], [0], 1, wf⟩

section Rows
variable {A C N w : Nat} (wf : ScatterDims.WF ⟨2, ![A, C]⟩ ⟨2, ![N, 1]⟩ ⟨2, ![N, C]⟩ [1] [0] [0] 1)

/-- Every element of update row `j` reads its one start component at position `(j, 0)` of the index array. -/
theorem rows_siIdx (j : Fin N) (b : Fin C) (c : Fin (rowDims A C N wf).scatterDimsToOperandDims.length) :
    (rowDims A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the start is the row index, read signed. -/
theorem rows_start0 (idx : IVec ⟨2, ![N, 1]⟩ w) (j : Fin N) (b : Fin C) :
    (rowDims A C N wf).start (ix2 j b) idx (0 : Fin 2) = (idx (ix2 j (0 : Fin 1))).toInt := by
  unfold ScatterDims.start
  rw [dif_pos (show (0 : Fin 2) ∈ (rowDims A C N wf).scatterDimsToOperandDims from List.mem_cons_self)]
  rw [rows_siIdx]

/-- The column axis is not indexed: its start is zero. -/
theorem rows_start1 (idx : IVec ⟨2, ![N, 1]⟩ w) (j : Fin N) (b : Fin C) :
    (rowDims A C N wf).start (ix2 j b) idx (1 : Fin 2) = 0 := by
  unfold ScatterDims.start
  rw [dif_neg (show (1 : Fin 2) ∉ (rowDims A C N wf).scatterDimsToOperandDims from by
    show (1 : Fin 2) ∉ ([0] : List (Fin 2))
    decide)]

/-- The row axis is inserted: no window coordinate there. -/
theorem rows_window0 (j : Fin N) (b : Fin C) : (rowDims A C N wf).window (ix2 j b) (0 : Fin 2) = 0 := by
  unfold ScatterDims.window
  rw [dif_neg (show (0 : Fin 2) ∉ (rowDims A C N wf).sKept from by
    show (0 : Fin 2) ∉ ([1] : List (Fin 2))
    decide)]

/-- On the column axis the window coordinate is the update's column. -/
theorem rows_window1 (j : Fin N) (b : Fin C) : (rowDims A C N wf).window (ix2 j b) (1 : Fin 2) = b.val := by
  unfold ScatterDims.window
  rw [dif_pos (show (1 : Fin 2) ∈ (rowDims A C N wf).sKept from by
    have : (rowDims A C N wf).sKept = [1] := rfl
    rw [this]; exact List.mem_cons_self)]
  rfl

/-- An update element lands on `(p, b)` exactly when its row's index, read signed, is `p` and its column is `b`. -/
theorem rows_resultIdx?_iff (idx : IVec ⟨2, ![N, 1]⟩ w) (j' : (⟨2, ![N, C]⟩ : Shape).Idx) (p : Fin A) (b : Fin C) :
    (rowDims A C N wf).resultIdx? j' idx = some (ix2 p b)
      ↔ (idx (ix2 (j' 0) (0 : Fin 1))).toInt = (p.val : Int) ∧ j' 1 = b := by
  obtain ⟨j, b', rfl⟩ : ∃ j b', j' = ix2 j b' := ⟨j' 0, j' 1, eq_ix2 j'⟩
  show _ ↔ (idx (ix2 j (0 : Fin 1))).toInt = (p.val : Int) ∧ b' = b
  rw [resultIdx?_eq_some_iff, Fin.forall_fin_two, rows_start0, rows_start1, rows_window0, rows_window1]
  simp only [Nat.cast_zero, add_zero, zero_add]
  constructor
  · rintro ⟨h0, h1⟩
    exact ⟨h0, Fin.ext (Int.ofNat_inj.mp h1)⟩
  · rintro ⟨h0, rfl⟩
    exact ⟨h0, rfl⟩

end Rows

/-- THE ROW SCATTER READ AT `(p, b)`: the operand's element plus the sum, over the update rows whose index read
    signed is `p`, of that row's element in column `b`; a row whose index is outside the operand is in no such sum. -/
theorem scatterAdd_rows_apply {A C N w : Nat} {φ : FTy} (wf : ScatterDims.WF ⟨2, ![A, C]⟩ ⟨2, ![N, 1]⟩ ⟨2, ![N, C]⟩ [1] [0] [0] 1)
    (x : FVec Ideal ⟨2, ![A, C]⟩ φ) (idx : IVec ⟨2, ![N, 1]⟩ w) (upd : FVec Ideal ⟨2, ![N, C]⟩ φ) (p : Fin A) (b : Fin C) :
    Host.scatterAdd (rowDims A C N wf) x idx upd (ix2 p b)
      = x (ix2 p b) + ∑ j ∈ Finset.univ.filter (fun j : Fin N => (idx (ix2 j (0 : Fin 1))).toInt = (p.val : Int)), upd (ix2 j b) := by
  show Ideal.hostScatterAdd (rowDims A C N wf) x idx upd (ix2 p b) = _
  unfold Ideal.hostScatterAdd
  congr 1
  have hcol : ∀ j' ∈ Finset.univ.filter (fun j' => (rowDims A C N wf).resultIdx? j' idx = some (ix2 p b)),
      ix2 (j' 0) b = j' := by
    intro j' hj'
    rw [Finset.mem_filter] at hj'
    have h := ((rows_resultIdx?_iff wf idx j' p b).mp hj'.2).2
    rw [← h]
    exact (eq_ix2 j').symm
  refine Finset.sum_nbij' (fun j' => j' 0) (fun j => ix2 j b) ?_ ?_ ?_ ?_ ?_
  · intro j' hj'
    rw [Finset.mem_filter] at hj'
    exact Finset.mem_filter.mpr ⟨Finset.mem_univ _, ((rows_resultIdx?_iff wf idx j' p b).mp hj'.2).1⟩
  · intro j hj
    rw [Finset.mem_filter] at hj
    exact Finset.mem_filter.mpr ⟨Finset.mem_univ _, (rows_resultIdx?_iff wf idx (ix2 j b) p b).mpr ⟨hj.2, rfl⟩⟩
  · exact hcol
  · intro j _
    rfl
  · intro j' hj'
    exact congrArg upd (hcol j' hj').symm

/-! ## Taking rows of a table -/

/-- take rows of a table [A,C] at indices [N,1]: result [N,C]; offset_dims [1], collapsed [0], start_index_map [0], index vector on axis 1, slice sizes [1, C] -/
abbrev rowGather (A C N : Nat) (wf : GatherDims.WF ⟨2, ![A, C]⟩ ⟨2, ![N, 1]⟩ ⟨2, ![N, C]⟩ [1] [0] [] [0] [] 1 ![1, C]) :
    GatherDims ⟨2, ![A, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

section Gather
variable {A C N w : Nat} (wf : GatherDims.WF ⟨2, ![A, C]⟩ ⟨2, ![N, 1]⟩ ⟨2, ![N, C]⟩ [1] [0] [] [0] [] 1 ![1, C])

/-- Every element of result row `j` reads its one start component at position `(j, 0)` of the index array. -/
theorem gather_siIdx (j : Fin N) (b : Fin C) (c : Fin (rowGather A C N wf).startIndexMap.length) :
    (rowGather A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the operand coordinate is the row index, read signed and clamped into `[0, A − 1]`. -/
theorem gather_coord0 (idx : IVec ⟨2, ![N, 1]⟩ w) (j : Fin N) (b : Fin C) :
    (rowGather A C N wf).start (ix2 j b) idx (0 : Fin 2) + (rowGather A C N wf).batchCoord (ix2 j b) (0 : Fin 2)
        + (rowGather A C N wf).offCoord (ix2 j b) (0 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGather A C N wf).startIndexMap from List.mem_cons_self)]
  rw [gather_siIdx]
  rfl

/-- On the column axis the operand coordinate is the result's column. -/
theorem gather_coord1 (idx : IVec ⟨2, ![N, 1]⟩ w) (j : Fin N) (b : Fin C) :
    (rowGather A C N wf).start (ix2 j b) idx (1 : Fin 2) + (rowGather A C N wf).batchCoord (ix2 j b) (1 : Fin 2)
        + (rowGather A C N wf).offCoord (ix2 j b) (1 : Fin 2)
      = b.val := by
  have hs : (rowGather A C N wf).start (ix2 j b) idx (1 : Fin 2) = 0 := by
    unfold GatherDims.start
    rw [dif_neg (show (1 : Fin 2) ∉ (rowGather A C N wf).startIndexMap from by
      show (1 : Fin 2) ∉ ([0] : List (Fin 2))
      decide)]
  rw [hs, GatherDims.batchCoord_eq_zero _ _ _ List.not_mem_nil]
  simp only [Nat.add_zero, Nat.zero_add]
  unfold GatherDims.offCoord
  rw [dif_pos (show (1 : Fin 2) ∈ (rowGather A C N wf).sKept from by
    rw [GatherDims.mem_sKept]
    exact ⟨by show (1 : Fin 2) ∉ ([0] : List (Fin 2)); decide, List.not_mem_nil⟩)]
  rfl

end Gather

/-- THE ROW GATHER READ AT `(j, b)`: the table's element in column `b` of the row whose number is index `j`, read
    signed and clamped into `[0, A − 1]`. -/
theorem gather_rows_apply {α : Type} {A C N w : Nat} (hA : 0 < A) (wf : GatherDims.WF ⟨2, ![A, C]⟩ ⟨2, ![N, 1]⟩ ⟨2, ![N, C]⟩ [1] [0] [] [0] [] 1 ![1, C])
    (x : (⟨2, ![A, C]⟩ : Shape).Idx → α) (idx : IVec ⟨2, ![N, 1]⟩ w) (j : Fin N) (b : Fin C) :
    Host.gather (rowGather A C N wf) x idx (ix2 j b)
      = x (ix2 ⟨min (idx (ix2 j (0 : Fin 1))).toInt.toNat (A - 1), by omega⟩ b) := by
  unfold Host.gather
  congr 1
  funext a
  refine Fin.ext ?_
  match a with
  | ⟨0, _⟩ => exact gather_coord0 wf idx j b
  | ⟨1, _⟩ => exact gather_coord1 wf idx j b

end Cert.ScatterRows

end
-- ==== Proof.SparseSpec.lean ====
/-
  The sparse product both programs compute, as one function of the four inputs. The inputs are a dense matrix `X`
  (128 × 4096) and a sparse 4096 × 4096 matrix given by 1048576 coordinate triples: a value `v j`, a row word
  `rows j` and a column word `cols j`. Entry `(b, i)` of the result is

      0 + ∑ {j : rows j = i} X (b, col j) · v j,

  the sum over the triples whose row word, read as a signed integer, is `i`; `col j` is the triple's column word
  as array indexing reads it: a negative word counts from the end of the axis (4096 is added), and the signed
  result is clamped into `[0, 4095]`. For a column word already in `[0, 4096)` both steps change nothing.
-/
import Idealize.ShloMosaic.PureOps.Ideal
import Idealize.ShloMosaic.Lib.ValueIdx

noncomputable section

open scoped BigOperators

namespace Cert.Spmm

open Idealize.ShloMosaic Idealize.ShloMosaic.ValueIdx

/-- An index word as array indexing normalises it on an axis of length 4096: a negative word counts from the end. -/
def wrapWord (c : BitVec 32) : BitVec 32 := Scalar.select (IntOp.cmpi .slt c 0#32) (IntOp.addi c 4096#32) c

/-- A non-negative word is not moved. -/
theorem wrapWord_of_nonneg (c : BitVec 32) (h : 0 ≤ c.toInt) : wrapWord c = c := by
  unfold wrapWord
  have h0 : (0#32 : BitVec 32).toInt = 0 := by decide
  have hs : c.slt 0#32 = false := by
    simp only [BitVec.slt, decide_eq_false_iff_not]
    omega
  have hc : IntOp.cmpi .slt c 0#32 = 0#1 := by
    unfold IntOp.cmpi
    simp only [hs]
    rfl
  rw [hc]
  exact select_zero _ _

/-- The column a word names once read signed and clamped into `[0, 4095]`. -/
def colOf (c : BitVec 32) : Fin 4096 := ⟨min c.toInt.toNat 4095, by omega⟩

/-- A word in `[0, 4096)` names its own value. -/
theorem colOf_val (c : BitVec 32) (h0 : 0 ≤ c.toInt) (h1 : c.toInt < 4096) : ((colOf c).val : Int) = c.toInt := by
  show ((min c.toInt.toNat 4095 : Nat) : Int) = c.toInt
  omega

/-- The sparse product at entry `(b, i)`: over the triples of row `i`, the dense matrix's entry at the triple's
    column times the triple's value, summed from zero. -/
def spec (X : FVec Ideal ⟨2, ![128, 4096]⟩ .f32) (v : FVec Ideal ⟨1, ![1048576]⟩ .f32) (rows cols : IVec ⟨1, ![1048576]⟩ 32) :
    FVec Ideal ⟨2, ![128, 4096]⟩ .f32 :=
  fun i => Ideal.ofBits .f32 0x00000000#32
    + ∑ j ∈ Finset.univ.filter (fun j : Fin 1048576 => (rows (ix1 j)).toInt = ((i 1).val : Int)),
        X (ix2 (⟨(i 0).val, (i 0).isLt⟩ : Fin 128) (colOf (wrapWord (cols (ix1 j))))) * v (ix1 j)

theorem spec_apply (X : FVec Ideal ⟨2, ![128, 4096]⟩ .f32) (v : FVec Ideal ⟨1, ![1048576]⟩ .f32) (rows cols : IVec ⟨1, ![1048576]⟩ 32)
    (b : Fin 128) (i : Fin 4096) :
    spec X v rows cols (ix2 b i) = Ideal.ofBits .f32 0x00000000#32
      + ∑ j ∈ Finset.univ.filter (fun j : Fin 1048576 => (rows (ix1 j)).toInt = (i.val : Int)),
          X (ix2 b (colOf (wrapWord (cols (ix1 j))))) * v (ix1 j) := rfl

end Cert.Spmm

end
-- ==== Proof.RefValue.lean ====
/-
  The reference program read at an entry. It transposes the dense matrix, takes for every coordinate triple `j` the
  transposed matrix's row at the triple's normalised column word (negative words count from the end; the take clamps
  into the table), scales that row by the triple's value, adds the scaled rows into a zero 4096 × 128 table at each
  triple's row word (a row word outside the table adds nothing), and transposes back. Read at entry `(b, i)`: the two
  transposes exchange the coordinates, the accumulating scatter is the sum over the triples whose row word is `i`, and
  the taken row's entry `b` is the dense matrix's entry `(b, col j)`. That is the sparse product's defining sum.
-/
import proofs.«423321_j53515292508416_3_alg».proof.Proof.Gen.ReferenceIdeal.Read
import proofs.«423321_j53515292508416_3_alg».proof.Proof.LibScatterRows
import proofs.«423321_j53515292508416_3_alg».proof.Proof.SparseSpec
import Idealize.ShloMosaic.Lib.ValueIdx

noncomputable section

open scoped BigOperators

namespace Cert.ReferenceIdeal.Sparse

open Cert.ReferenceIdeal Cert.ReferenceIdeal.Gen Cert.ReferenceIdeal.Read Cert.Spmm
open Idealize.ShloMosaic Idealize.ShloMosaic.ValueIdx

/-- The start-index column holds, at `(j, 0)`, triple `j`'s column word normalised. -/
theorem wrapped_cols (cols : IVec S1048576 32) (j : Fin 1048576) :
    val_main_v6 (F := Ideal) cols (ix2 j (0 : Fin 1)) = wrapWord (cols (ix1 j)) := by
  rw [val_main_v6_apply]
  have e : idx_main_v6 (ix2 j (0 : Fin 1)) = ix1 j := funext fun a => Fin.ext (by match a with | ⟨0, _⟩ => rfl)
  rw [e, val_main_v5_apply, val_main_v2_apply, val_main_v4_apply, val_main_v1_apply, val_main_v3_apply, val_main_c_apply,
    val_main_c_0_apply]
  rfl

/-- A row taken from the transposed dense matrix at a start word `w`, read at column `b`, is the dense matrix's
    entry `(b, col w)`. -/
theorem taken_row (X : FVec Ideal S128x4096 .f32) (idx : IVec S1048576x1 32) (j : Fin 1048576) (b : Fin 128) (w : BitVec 32)
    (hw : idx (ix2 j (0 : Fin 1)) = w) :
    Host.gather gather_S4096x128_S1048576x1_S1048576x128_1_0_n_n_0_1_1128 (val_main_v0 (F := Ideal) X) idx (ix2 j b)
      = X (ix2 b (colOf w)) := by
  subst hw
  refine (Cert.ScatterRows.gather_rows_apply (by decide) Facts₀.gather_S4096x128_S1048576x1_S1048576x128_1_0_n_n_0_1_1128_wf
    (val_main_v0 (F := Ideal) X) idx j b).trans ?_
  rw [val_main_v0_apply]
  exact congrArg X (funext fun a => Fin.ext (by match a with | ⟨0, _⟩ => rfl | ⟨1, _⟩ => rfl))

/-- The reference's result at entry `(b, i)` is the sparse product's defining sum. -/
theorem result_apply (X : FVec Ideal S128x4096 .f32) (v : FVec Ideal S1048576 .f32) (rows cols : IVec S1048576 32)
    (b : Fin 128) (i : Fin 4096) :
    val_main_v14 (F := Ideal) X v rows cols (ix2 b i) = spec X v rows cols (ix2 b i) := by
  rw [val_main_v14_apply]
  have e : idx_main_v14 (ix2 b i) = ix2 i b :=
    funext fun a => Fin.ext (by match a with | ⟨0, _⟩ => rfl | ⟨1, _⟩ => rfl)
  rw [e, spec_apply]
  unfold val_main_v13
  refine (Cert.ScatterRows.scatterAdd_rows_apply Facts₀.scatter_S4096x128_S1048576x1_S1048576x128_1_0_0_1_wf
    (val_main_v11 (F := Ideal)) (val_main_v12 (F := Ideal) rows) (val_main_v10 (F := Ideal) X v cols) i b).trans ?_
  have hrow : ∀ j : Fin 1048576, val_main_v12 (F := Ideal) rows (ix2 j (0 : Fin 1)) = rows (ix1 j) := by
    intro j
    rw [val_main_v12_apply]
    exact congrArg rows (funext fun a => Fin.ext (by match a with | ⟨0, _⟩ => rfl))
  have hval : ∀ j : Fin 1048576, val_main_v9 (F := Ideal) v (ix2 j b) = v (ix1 j) := by
    intro j
    rw [val_main_v9_apply, val_main_v8_apply]
    exact congrArg v (funext fun a => Fin.ext (by match a with | ⟨0, _⟩ => rfl))
  refine congrArg₂ (fun (z s : EReal) => z + s) ?_ ?_
  · rw [val_main_v11_apply, val_main_cst_apply]; rfl
  · refine Finset.sum_congr (Finset.filter_congr fun j _ => by rw [hrow]) fun j _ => ?_
    rw [val_main_v10_apply, hval]
    unfold val_main_v7
    rw [taken_row X (val_main_v6 (F := Ideal) cols) j b _ (wrapped_cols cols j)]
    rfl

/-- The reference's result is the sparse product. -/
theorem result_eq (X : FVec Ideal S128x4096 .f32) (v : FVec Ideal S1048576 .f32) (rows cols : IVec S1048576 32) :
    val_main_v14 (F := Ideal) X v rows cols = spec X v rows cols := by
  funext i
  obtain ⟨b, k, rfl⟩ : ∃ (b : Fin 128) (k : Fin 4096), i = ix2 b k := ⟨i 0, i 1, @eq_ix2 128 4096 i⟩
  exact result_apply X v rows cols b k

end Cert.ReferenceIdeal.Sparse

end
-- ==== Proof.LibDotRows.lean ====
/-
  The matrix unit's product of an `[R, K]` matrix with the TRANSPOSE of a `[C, K]` matrix — both operands contracted
  on their second axis — into a zero accumulator, read at an entry, at the extended reals: entry `(r, c)` is the sum
  over `k` of `x (r, k) · g (c, k)`, the inner product of row `r` of the left operand with row `c` of the right one.
-/
import Idealize.ShloMosaic.PureOps.Ideal
import Idealize.ShloMosaic.PureOps.Ideal.Laws
import Idealize.ShloMosaic.Lib.ValueIdx

noncomputable section

open scoped BigOperators

namespace Cert.DotRows

open Idealize.ShloMosaic Idealize.ShloMosaic.ValueIdx

/-- The dimension numbers of rows against rows: contract the left operand's axis 1 with the right operand's axis 1. -/
abbrev rr (R K C : Nat) (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ := ⟨[1], [1], [0], [0], [], [], wf⟩

/-- The left operand's index on axis 0 is the result index's row. -/
theorem lhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 0).val = (j 0).val := by
  unfold DotDims.lhsIdx
  rw [dif_neg (show ¬(0 : Fin (⟨2, ![R, K]⟩ : Shape).rank) ∈ (rr R K C wf).lhsBatch from List.not_mem_nil),
    dif_pos (show (0 : Fin (⟨2, ![R, K]⟩ : Shape).rank) ∈ (rr R K C wf).lhsNonContracting from List.mem_singleton.mpr rfl)]
  rfl

/-- The left operand's index on axis 1 is the contraction position's one coordinate. -/
theorem lhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 1).val = (q ⟨0, Nat.one_pos⟩).val :=
  (rr R K C wf).lhsIdx_val_of_single rfl j q

/-- The right operand's index on axis 0 is the result index's column. -/
theorem rhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 0).val = (j 1).val := by
  unfold DotDims.rhsIdx
  rw [dif_neg (show ¬(0 : Fin (⟨2, ![C, K]⟩ : Shape).rank) ∈ (rr R K C wf).rhsBatch from List.not_mem_nil),
    dif_pos (show (0 : Fin (⟨2, ![C, K]⟩ : Shape).rank) ∈ (rr R K C wf).rhsNonContracting from List.mem_singleton.mpr rfl)]
  rfl

/-- The right operand's index on axis 1 is the contraction position's one coordinate. -/
theorem rhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 1).val = (q ⟨0, Nat.one_pos⟩).val :=
  (rr R K C wf).rhsIdx_val_of_single rfl j q

/-- THE PRODUCT AT `(r, c)`: into a zero accumulator, the inner product of the operands' rows `r` and `c`. -/
theorem matmul_zero_apply {R K C : Nat} {φ₁ φ₂ : FTy}
    (wf : DotDims.WF ⟨2, ![R, K]⟩ ⟨2, ![C, K]⟩ ⟨2, ![R, C]⟩ [1] [1] [0] [0] [] [])
    (prec : Option ContractPrecision) (x : FVec Ideal ⟨2, ![R, K]⟩ φ₁) (g : FVec Ideal ⟨2, ![C, K]⟩ φ₂) (r : Fin R) (c : Fin C) :
    matmul (rr R K C wf) prec x g (constant (F := Ideal) ⟨2, ![R, C]⟩ .f32 0x00000000#32) (ix2 r c)
      = ∑ k : Fin K, x (ix2 r k) * g (ix2 c k) := by
  refine (Ideal.matmul_constant_zero_apply (rr R K C wf) prec x g (ix2 r c)).trans ?_
  rw [← Equiv.sum_comp (contrEquiv1 (rr R K C wf) K rfl rfl).symm]
  refine Finset.sum_congr rfl fun k _ => ?_
  have hk := contrEquiv1_symm_val (rr R K C wf) K rfl rfl k
  have el : (rr R K C wf).lhsIdx (ix2 r c) ((contrEquiv1 (rr R K C wf) K rfl rfl).symm k) = ix2 r k :=
    funext fun a => Fin.ext (by
      match a with
      | ⟨0, _⟩ => exact lhs_0 wf _ _
      | ⟨1, _⟩ => exact (lhs_1 wf _ _).trans hk)
  have er : (rr R K C wf).rhsIdx (ix2 r c) ((contrEquiv1 (rr R K C wf) K rfl rfl).symm k) = ix2 c k :=
    funext fun a => Fin.ext (by
      match a with
      | ⟨0, _⟩ => exact rhs_0 wf _ _
      | ⟨1, _⟩ => exact (rhs_1 wf _ _).trans hk)
  rw [el, er]

end Cert.DotRows

end
-- ==== Proof.DenseValue.lean ====
/-
  The dense stage of the kernel, read as one function of the two arrays its launch stages. The launch walks four
  grid points; point `t` holds the whole left array `a` (128 rows of length 4096) and rows `1024·t … 1024·t + 1023`
  of the right array `w` (4096 rows of length 4096), multiplies rows against rows into a zero accumulator, and writes
  the 128 × 1024 product to columns `1024·t … 1024·t + 1023` of the result. So entry `(b, i)` of the result is the
  inner product `∑ k, a (b, k) · w (i, k)` of row `b` of `a` with row `i` of `w`; the four column blocks tile the
  result, the point covering column `i` being `i / 1024`.
-/
import proofs.«423321_j53515292508416_3_alg».proof.Proof.Gen.KernelIdeal.Value
import proofs.«423321_j53515292508416_3_alg».proof.Proof.LibDotRows
import Idealize.ShloMosaic.Lib.Pipeline.Value
import Idealize.ShloMosaic.Lib.ValueIdx

noncomputable section

open scoped BigOperators

namespace Cert.KernelIdeal.Dense

open Cert.KernelIdeal Cert.KernelIdeal.Gen Cert.KernelIdeal.Value Cert.KernelIdeal.Facts₀
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Rows against rows: entry `(b, i)` is the inner product of row `b` of `a` with row `i` of `w`. -/
def rowsDot (a : FVec Ideal S128x4096 .bf16) (w : FVec Ideal S4096x4096 .bf16) : FVec Ideal S128x4096 .f32 :=
  fun i => ∑ k : Fin 4096, a (ix2 (⟨(i 0).val, (i 0).isLt⟩ : Fin 128) k) * w (ix2 (⟨(i 1).val, (i 1).isLt⟩ : Fin 4096) k)

theorem rowsDot_apply (a : FVec Ideal S128x4096 .bf16) (w : FVec Ideal S4096x4096 .bf16) (b : Fin 128) (i : Fin 4096) :
    rowsDot a w (ix2 b i) = ∑ k : Fin 4096, a (ix2 b k) * w (ix2 i k) := rfl

/-- The left array as the launch finds it. -/
abbrev lhsArr (c : Dev nD) : FVec Ideal S128x4096 .bf16 := V m c main_v16
/-- The right array as the launch finds it. -/
abbrev rhsArr (c : Dev nD) : FVec Ideal S4096x4096 .bf16 := V m c main_v15

theorem hz : (![0, 0] : Fin 2 → Nat) = fun _ => 0 := funext fun a => by fin_cases a <;> rfl

/-- The body's product at `(p, q)`: row `p` of the left block against row `q` of the right block. -/
theorem pay_apply (x0 : FVec Ideal S128x4096 .bf16) (x1 : FVec Ideal S1024x4096 .bf16) (p : Fin 128) (q : Fin 1024) :
    k0_pay1 (F := Ideal) x0 x1 (ix2 p q) = ∑ k : Fin 4096, x0 (ix2 p k) * x1 (ix2 q k) := by
  unfold k0_pay1
  rw [shapeCast_self, shapeCast_self]
  exact Cert.DotRows.matmul_zero_apply Facts₀.dot_S128x4096_S1024x4096_S128x1024_1_1_0_0_n_n_wf none x0 x1 p q

/-- Where the three windows' blocks sit at a point: the left array whole, the right array's row block and the
    result's column block both at the point's number. -/
theorem idx_facts : ∀ t : Fin cfg0.N, win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 3 :=
  (by decide +kernel : ∀ t : Fin grid0.N, _)

/-- Every column block is some point's. -/
theorem idx_onto : ∀ q : Fin 4, ∃ t : Fin cfg0.N, win0_2.index t = ![0, q.val] :=
  (by decide +kernel : ∀ q : Fin 4, ∃ t : Fin grid0.N, win0_2.index t = ![0, q.val])

/-- The point's column block starts inside the result. -/
theorem col_lt (t : Fin cfg0.N) (q : Fin 1024) : win0_2.index t (1 : Fin 2) * 1024 + q.val < 4096 := by
  obtain ⟨-, -, -, -, -, e21⟩ := idx_facts t
  have := q.isLt
  omega

/-- The left window's block at any point is the whole array. -/
theorem blk0_read (G : FVec Ideal S128x4096 .bf16) (t : Fin cfg0.N) (p : Fin 128) (k : Fin 4096) :
    ((cfg0.win 0).blk t).view.read (Elt Ideal) G (ix2 p k) = G (ix2 p k) := by
  obtain ⟨e00, e01, -, -, -, -⟩ := idx_facts t
  rw [View.read_apply]
  refine congrArg G (funext fun a => Fin.ext ?_)
  match a with
  | ⟨0, _⟩ => show win0_0.index t (0 : Fin 2) * 128 + 1 * p.val = p.val; omega
  | ⟨1, _⟩ => show win0_0.index t (1 : Fin 2) * 4096 + 1 * k.val = k.val; omega

/-- The right window's block at point `t` is the 1024 rows of the array from row `1024·t` on. -/
theorem blk1_read (G : FVec Ideal S4096x4096 .bf16) (t : Fin cfg0.N) (q : Fin 1024) (k : Fin 4096) :
    ((cfg0.win 1).blk t).view.read (Elt Ideal) G (ix2 q k)
      = G (ix2 (⟨win0_2.index t (1 : Fin 2) * 1024 + q.val, col_lt t q⟩ : Fin 4096) k) := by
  obtain ⟨-, -, e10, e11, -, -⟩ := idx_facts t
  rw [View.read_apply]
  refine congrArg G (funext fun a => Fin.ext ?_)
  match a with
  | ⟨0, _⟩ => show win0_1.index t (0 : Fin 2) * 1024 + 1 * q.val = win0_2.index t (1 : Fin 2) * 1024 + q.val; omega
  | ⟨1, _⟩ => show win0_1.index t (1 : Fin 2) * 4096 + 1 * k.val = k.val; omega

/-- The result window's block at point `t` sits at columns `1024·t` on. -/
theorem blk2_emb (t : Fin cfg0.N) (p : Fin 128) (q : Fin 1024) :
    ((cfg0.win 2).blk t).view.emb (ix2 p q) = ix2 p (⟨win0_2.index t (1 : Fin 2) * 1024 + q.val, col_lt t q⟩ : Fin 4096) := by
  obtain ⟨-, -, -, -, e20, -⟩ := idx_facts t
  funext a; apply Fin.ext
  match a with
  | ⟨0, _⟩ => show win0_2.index t (0 : Fin 2) * 128 + 1 * p.val = p.val; omega
  | ⟨1, _⟩ => show win0_2.index t (1 : Fin 2) * 1024 + 1 * q.val = win0_2.index t (1 : Fin 2) * 1024 + q.val; omega

/-- The body's product of two blocks read out of arrays `a` and `w` as above is the rows-against-rows product of the
    arrays at the block's place. -/
theorem pay_blocks (a : FVec Ideal S128x4096 .bf16) (w : FVec Ideal S4096x4096 .bf16) (t : Fin cfg0.N)
    (x0 : FVec Ideal S128x4096 .bf16) (x1 : FVec Ideal S1024x4096 .bf16)
    (h0 : x0 = ((cfg0.win 0).blk t).view.read (Elt Ideal) a) (h1 : x1 = ((cfg0.win 1).blk t).view.read (Elt Ideal) w)
    (p : Fin 128) (q : Fin 1024) :
    k0_pay1 (F := Ideal) x0 x1 (ix2 p q)
      = rowsDot a w (ix2 p (⟨win0_2.index t (1 : Fin 2) * 1024 + q.val, col_lt t q⟩ : Fin 4096)) := by
  subst h0 h1
  rw [pay_apply, rowsDot_apply]
  refine Finset.sum_congr rfl fun k _ => ?_
  rw [blk0_read, blk1_read]

/-- What point `t` writes back is block `t` of the rows-against-rows product of the staged arrays. -/
theorem flushed_eq (c : Dev nD) (t : Fin cfg0.N) :
    (dats m 0 c).flushed 2 t = ((cfg0.win 2).blk t).view.read (Elt Ideal) (rowsDot (lhsArr m c) (rhsArr m c)) := by
  rw [Value.flushed2]
  unfold out0_2
  rw [View.canon_unit_zero hz]
  simp only [View.ld_unit_zero (S := S128x4096) hz, View.ld_unit_zero (S := S1024x4096) hz]
  funext j
  obtain ⟨p, q, rfl⟩ : ∃ (p : Fin 128) (q : Fin 1024), j = ix2 p q := ⟨j 0, j 1, @eq_ix2 128 1024 j⟩
  rw [View.read_apply, blk2_emb]
  exact pay_blocks (lhsArr m c) (rhsArr m c) t (iblk m c 0 t) (iblk m c 1 t) rfl rfl p q

/-- An index of the result is in point `t`'s block iff each coordinate is in the block's range on its axis. -/
theorem mem_blk (t : Fin cfg0.N) (i : S128x4096.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v17).slice (win0_2.rect t)).set ↔ _
  rw [View.set_slice_whole, Rect.mem_set_unit]
  exact Iff.rfl

/-- The four column blocks tile the result: column `i` lies in the block of point `i / 1024`. -/
theorem cover (i : S128x4096.Idx) : ∃ t : Fin cfg0.N, (cfg0.win 2).flush t = true ∧ i ∈ ((cfg0.win 2).blk t).view.set := by
  have hi0 : (i 0).val < 128 := (i 0).isLt
  have hi1 : (i 1).val < 4096 := (i 1).isLt
  obtain ⟨t, ht⟩ := idx_onto ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1024 ≤ (i 1).val ∧ (i 1).val < win0_2.index t (1 : Fin 2) * 1024 + 1024; omega

/-- The result array after the run is the rows-against-rows product of the two staged arrays. -/
theorem final (c : Dev nD) : (dats m 0 c).arrAt 2 cfg0.N = rowsDot (lhsArr m c) (rhsArr m c) :=
  (dats m 0 c).arrAt_eq_of_cover 2 (rowsDot (lhsArr m c) (rhsArr m c)) (fun t _ => flushed_eq m c t) cover

/-- The kernel's run: the result ends at the rows-against-rows product, the arguments unchanged. -/
theorem run : θ_run defs (onTc (τ := τ) (main (F := Ideal))) ⟨m, fun _ => 0, ρ⟩ fun r => ∀ c : Dev nD,
      r.2.mem ((c : Thread nD τ).loc main_v17) = rowsDot (lhsArr m c) (rhsArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Dense

end
-- ==== Proof.DenseInputs.lean ====
/-
  What the launch stages, as functions of the four inputs. The left array is the dense matrix `X` (a change of float
  format is the identity on the extended reals). The right array is the sparse matrix made dense: starting from the
  zero 4096 × 4096 matrix, every coordinate triple `j` adds its value at the entry its two index words name, each
  word first normalised (a negative word counts from the end of the axis); a triple whose normalised pair is outside
  the matrix adds nothing. So entry `(i, k)` of the right array is `0 + ∑ {j : row word j = i, column word j = k} v j`.
-/
import proofs.«423321_j53515292508416_3_alg».proof.Proof.DenseValue
import proofs.«423321_j53515292508416_3_alg».proof.Proof.LibScatterRows
import proofs.«423321_j53515292508416_3_alg».proof.Proof.SparseSpec
import Idealize.ShloMosaic.Lib.StableHlo.Run

noncomputable section

open scoped BigOperators

namespace Cert.KernelIdeal.Dense

open Cert.KernelIdeal Cert.KernelIdeal.Gen Cert.Spmm
open Idealize.ShloMosaic Idealize.ShloMosaic.ValueIdx Idealize.ShloMosaic.TcCoe Idealize.SL.Sem Idealize.ShloMosaic.StableHlo

variable (m : (ℓ : Loc nD τ sig) → Buf (Elt Ideal) ℓ)

/-- A vector of index words, each normalised: a negative word has 4096 added. -/
def wrapVec (x : IVec S1048576 32) : IVec S1048576 32 :=
  select (cmpi .slt x (broadcastInDim S1048576 ![] Facts₀.bcast_S_S1048576 (constantI S_ 32 0#32)))
    (addi x (broadcastInDim S1048576 ![] Facts₀.bcast_S_S1048576 (constantI S_ 32 4096#32))) x

theorem wrapVec_apply (x : IVec S1048576 32) (j : Fin 1048576) : wrapVec x (ix1 j) = wrapWord (x (ix1 j)) := by
  unfold wrapVec wrapWord
  rw [select_apply]
  show Scalar.select (IntOp.cmpi .slt (x (ix1 j)) _) (IntOp.addi (x (ix1 j)) _) (x (ix1 j)) = _
  rw [broadcastInDim_apply _ Facts₀.bcast_S_S1048576 (constantI S_ 32 0#32) (ix1 j) ix0 (fun a => a.elim0),
    broadcastInDim_apply _ Facts₀.bcast_S_S1048576 (constantI S_ 32 4096#32) (ix1 j) ix0 (fun a => a.elim0)]
  rfl

/-- The normalised (row, column) pairs, one per triple. -/
def pairs (rows cols : IVec S1048576 32) : IVec S1048576x2 32 :=
  concatenate S1048576x2 1
    [⟨S1048576x1, broadcastInDim S1048576x1 ![0] Facts₀.bcast_S1048576_S1048576x1_0 (wrapVec rows)⟩,
     ⟨S1048576x1, broadcastInDim S1048576x1 ![0] Facts₀.bcast_S1048576_S1048576x1_0 (wrapVec cols)⟩]
    Facts₀.concatenates_S1048576x1_S1048576x1_S1048576x2_d1

/-- A vector laid as a column reads, at `(j, 0)`, the vector at `j`. -/
theorem column_apply (x : IVec S1048576 32) (j : Fin 1048576) :
    broadcastInDim S1048576x1 ![0] Facts₀.bcast_S1048576_S1048576x1_0 x (ix2 j (0 : Fin 1)) = x (ix1 j) :=
  broadcastInDim_apply _ Facts₀.bcast_S1048576_S1048576x1_0 x (ix2 j (0 : Fin 1)) (ix1 j) (fun a => match a with
    | ⟨0, _⟩ => by show j.val = if (1048576 : Nat) = 1 then 0 else j.val; rw [if_neg (by decide)])

theorem pairs_row (rows cols : IVec S1048576 32) (j : Fin 1048576) :
    pairs rows cols (ix2 j (0 : Fin 2)) = wrapWord (rows (ix1 j)) := by
  unfold pairs
  rw [concatenate_pair_apply_left (t := S1048576x2) (s₁ := S1048576x1) (s₂ := S1048576x1) (1 : Fin 2)
    (broadcastInDim S1048576x1 ![0] Facts₀.bcast_S1048576_S1048576x1_0 (wrapVec rows))
    (broadcastInDim S1048576x1 ![0] Facts₀.bcast_S1048576_S1048576x1_0 (wrapVec cols))
    Facts₀.concatenates_S1048576x1_S1048576x1_S1048576x2_d1 (ix2 j (0 : Fin 2)) rfl
    (ix2 j (0 : Fin 1)) (fun b => match b with | ⟨0, _⟩ => rfl | ⟨1, _⟩ => rfl)]
  rw [column_apply, wrapVec_apply]

theorem pairs_col (rows cols : IVec S1048576 32) (j : Fin 1048576) :
    pairs rows cols (ix2 j (1 : Fin 2)) = wrapWord (cols (ix1 j)) := by
  unfold pairs
  rw [concatenate_pair_apply_right (t := S1048576x2) (s₁ := S1048576x1) (s₂ := S1048576x1) (1 : Fin 2)
    (broadcastInDim S1048576x1 ![0] Facts₀.bcast_S1048576_S1048576x1_0 (wrapVec rows))
    (broadcastInDim S1048576x1 ![0] Facts₀.bcast_S1048576_S1048576x1_0 (wrapVec cols))
    Facts₀.concatenates_S1048576x1_S1048576x1_S1048576x2_d1 (ix2 j (1 : Fin 2)) rfl rfl
    (ix2 j (0 : Fin 1)) (fun b hb => match b, hb with | ⟨0, _⟩, _ => rfl | ⟨1, _⟩, hb => absurd rfl hb) rfl]
  rw [column_apply, wrapVec_apply]

/-- The sparse matrix made dense. -/
def denseW (v : FVec Ideal S1048576 .f32) (rows cols : IVec S1048576 32) : FVec Ideal S4096x4096 .f32 :=
  Host.scatterAdd scatter_S4096x4096_S1048576x2_S1048576_n_01_01_1
    (broadcastInDim S4096x4096 ![] Facts₀.bcast_S_S4096x4096 (constant (F := Ideal) S_ .f32 0x00000000#32)) (pairs rows cols) v

/-- Entry `(i, k)` of the dense matrix: zero plus the values of the triples whose normalised pair is `(i, k)`. -/
theorem denseW_apply (v : FVec Ideal S1048576 .f32) (rows cols : IVec S1048576 32) (i k : Fin 4096) :
    denseW v rows cols (ix2 i k) = Ideal.ofBits .f32 0x00000000#32
      + ∑ j ∈ Finset.univ.filter (fun j : Fin 1048576 =>
          (wrapWord (rows (ix1 j))).toInt = (i.val : Int) ∧ (wrapWord (cols (ix1 j))).toInt = (k.val : Int)), v (ix1 j) := by
  unfold denseW
  refine (Cert.ScatterRows.scatterAdd_point_apply Facts₀.scatter_S4096x4096_S1048576x2_S1048576_n_01_01_1_wf
    (broadcastInDim S4096x4096 ![] Facts₀.bcast_S_S4096x4096 (constant (F := Ideal) S_ .f32 0x00000000#32)) (pairs rows cols) v i k).trans ?_
  refine congrArg₂ (fun (z s : EReal) => z + s) ?_ ?_
  · rw [broadcastInDim_apply _ Facts₀.bcast_S_S4096x4096 (constant (F := Ideal) S_ .f32 0x00000000#32) (ix2 i k) ix0 (fun a => a.elim0)]
    rfl
  · refine Finset.sum_congr (Finset.filter_congr fun j _ => by rw [pairs_row, pairs_col]) fun j _ => rfl

/-- The left array is the dense matrix. -/
theorem lhsArr_eq (c : Dev nD) :
    lhsArr m c = truncf .bf16 (m ((c : Thread nD τ).loc main_arg0) : FVec Ideal S128x4096 .f32) Facts₀.bitsLt_bf16_f32 := by
  dsimp only [lhsArr, Gen.V, Gen.hostOps0]
  after_results

/-- The right array is the sparse matrix made dense. -/
theorem rhsArr_eq (c : Dev nD) :
    rhsArr m c = truncf .bf16 (denseW (m ((c : Thread nD τ).loc main_arg1)) (m ((c : Thread nD τ).loc main_arg2))
      (m ((c : Thread nD τ).loc main_arg3))) Facts₀.bitsLt_bf16_f32 := by
  unfold denseW pairs wrapVec
  dsimp only [rhsArr, Gen.V, Gen.hostOps0]
  after_results_simp
  rfl

end Cert.KernelIdeal.Dense

end
-- ==== Proof.SparseAlgebra.lean ====
/-
  The one algebraic law behind a sparse matrix product. A matrix given by coordinate triples (row, column, value),
  repeated coordinates adding up, can be applied to a vector in two ways: first assemble the dense row
  `w k = ∑ {j : row j = i, col j = k} v j` and contract it with the vector, `∑ k, x k * w k`; or walk the triples of
  the row and gather the vector's entry at each triple's column, `∑ {j : row j = i} x (col j) * v j`. Over the reals the
  two agree: distribute `x k` over the inner sum, exchange the two finite sums, and for each triple the sum over `k`
  keeps only `k = col j`. Distributing needs real (finite) entries, so the law is stated for real families read in the
  extended reals, where a finite sum of reals is the real sum.
-/
import Idealize.ShloMosaic.PureOps.Ideal

noncomputable section

open scoped BigOperators

namespace Cert.Spmm

/-- A finite sum of real numbers, taken in the extended reals, is the real sum. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals: contracting `x` with the assembled dense row is walking the row's triples. -/
theorem dense_row_contract {J K : Type} [Fintype J] [Fintype K] [DecidableEq K] (x : K → ℝ) (v : J → ℝ)
    (P : J → Prop) [DecidablePred P] (col : J → K) :
    (∑ k, x k * ∑ j ∈ Finset.univ.filter (fun j => P j ∧ col j = k), v j)
      = ∑ j ∈ Finset.univ.filter P, x (col j) * v j := by
  simp only [Finset.mul_sum, Finset.sum_filter]
  rw [Finset.sum_comm]
  refine Finset.sum_congr rfl fun j _ => ?_
  by_cases hj : P j
  · simp only [hj, true_and, mul_ite, mul_zero, Finset.sum_ite_eq, Finset.mem_univ, if_true]
  · simp [hj]

/-- The same in the extended reals, each side started from a zero `z` as an accumulating scatter starts from its
    operand: the dense row's entry `k` collects the triples selected by `Q k`, which are those of the row (`P`) whose
    column is `k`. -/
theorem dense_eq_sparse {J K : Type} [Fintype J] [Fintype K] [DecidableEq K] (x : K → ℝ) (v : J → ℝ)
    (P : J → Prop) [DecidablePred P] (col : J → K) (Q : K → J → Prop) [∀ k, DecidablePred (Q k)]
    (hQ : ∀ k j, Q k j ↔ P j ∧ col j = k) (z : EReal) (hz : z = 0) :
    (∑ k, ((x k : ℝ) : EReal) * (z + ∑ j ∈ Finset.univ.filter (Q k), ((v j : ℝ) : EReal)))
      = z + ∑ j ∈ Finset.univ.filter P, ((x (col j) : ℝ) : EReal) * ((v j : ℝ) : EReal) := by
  subst hz
  have hf : ∀ k, Finset.univ.filter (Q k) = Finset.univ.filter (fun j => P j ∧ col j = k) :=
    fun k => Finset.filter_congr fun j _ => hQ k j
  simp only [zero_add, hf, coe_finset_sum, ← EReal.coe_mul]
  rw [dense_row_contract]

end Cert.Spmm

end
-- ==== Proof.Bridge.lean ====
/-
  The kernel's function is the sparse product. The kernel contracts the dense matrix with the sparse matrix made dense:
  entry `(b, i)` is `∑ k, X (b, k) · (0 + ∑ {j : row word j = i, column word j = k} v j)`, the words normalised. When
  every row word is non-negative and every column word lies in `[0, 4096)`, normalising changes no word and the column
  a word names is the word itself, so the triples collected at `(i, k)` are those of row `i` whose column is `k`; and
  when the entries of `X` and the values are real numbers, distributing each `X (b, k)` over its inner sum and
  exchanging the two sums gives `0 + ∑ {j : row word j = i} X (b, col j) · v j`: the sparse product's defining sum.
-/
import proofs.«423321_j53515292508416_3_alg».proof.Proof.DenseInputs
import proofs.«423321_j53515292508416_3_alg».proof.Proof.SparseAlgebra
import proofs.«423321_j53515292508416_3_alg».proof.Proof.SparseSpec

noncomputable section

open scoped BigOperators

namespace Cert.Bridge

open Cert.Spmm Cert.KernelIdeal.Dense
open Idealize.ShloMosaic Idealize.ShloMosaic.ValueIdx

/-- Under the decoded precondition the kernel's rows-against-rows product of the dense matrix with the densified sparse
    matrix is the sparse product. -/
theorem dense_eq_spec (X : FVec Ideal ⟨2, ![128, 4096]⟩ .f32) (v : FVec Ideal ⟨1, ![1048576]⟩ .f32)
    (rows cols : IVec ⟨1, ![1048576]⟩ 32)
    (hX : ∃ x : (⟨2, ![128, 4096]⟩ : Shape).Idx → ℝ, X = fun i => ((x i : ℝ) : EReal))
    (hv : ∃ u : (⟨1, ![1048576]⟩ : Shape).Idx → ℝ, v = fun i => ((u i : ℝ) : EReal))
    (hr : ∀ j : (⟨1, ![1048576]⟩ : Shape).Idx, 0 ≤ (rows j).toInt)
    (hc : ∀ j : (⟨1, ![1048576]⟩ : Shape).Idx, 0 ≤ (cols j).toInt ∧ (cols j).toInt < 4096) :
    rowsDot (truncf .bf16 X Cert.KernelIdeal.Facts₀.bitsLt_bf16_f32)
        (truncf .bf16 (denseW v rows cols) Cert.KernelIdeal.Facts₀.bitsLt_bf16_f32)
      = spec X v rows cols := by
  obtain ⟨x, rfl⟩ := hX
  obtain ⟨u, rfl⟩ := hv
  funext i
  obtain ⟨b, i, rfl⟩ : ∃ (b : Fin 128) (k : Fin 4096), i = ix2 b k := ⟨i 0, i 1, @eq_ix2 128 4096 i⟩
  rw [rowsDot_apply, spec_apply]
  simp only [truncf_apply, denseW_apply]
  refine dense_eq_sparse (fun k => x (ix2 b k)) (fun j => u (ix1 j)) (fun j => (rows (ix1 j)).toInt = (i.val : Int))
    (fun j => colOf (wrapWord (cols (ix1 j))))
    (fun k j => (wrapWord (rows (ix1 j))).toInt = (i.val : Int) ∧ (wrapWord (cols (ix1 j))).toInt = (k.val : Int))
    (fun k j => ?_) _ Ideal.ofBits_zero_f32
  have hrj := hr (ix1 j)
  obtain ⟨hc0, hc1⟩ := hc (ix1 j)
  rw [wrapWord_of_nonneg _ hrj, wrapWord_of_nonneg _ hc0]
  have hcv := colOf_val (cols (ix1 j)) hc0 hc1
  constructor
  · rintro ⟨h1, h2⟩
    exact ⟨h1, Fin.ext (Int.ofNat_inj.mp (hcv.trans h2))⟩
  · rintro ⟨h1, rfl⟩
    exact ⟨h1, hcv.symm⟩

end Cert.Bridge

end
-- ==== Proof.lean ====
/-
  A sparse 4096 × 4096 matrix, given by 1048576 coordinate triples (row word, column word, value) whose repeated
  coordinates add up, is applied to a dense 128 × 4096 matrix `X`: entry `(b, i)` of the result is
  `∑ {j : row j = i} X (b, col j) · v j`.

  The reference walks the triples: it takes the row of `Xᵀ` at each triple's column, scales it by the triple's value
  and adds it into row `row j` of a zero table. The kernel first makes the sparse matrix dense,
  `W (i, k) = ∑ {j : row j = i, col j = k} v j`, and then contracts rows against rows on the matrix unit, four column
  blocks of 1024 at a time: `∑ k, X (b, k) · W (i, k)`. Over the extended reals the changes of float format are the
  identity, and the two results are the same sum rearranged: distribute `X (b, k)` over `W (i, k)`, exchange the sums,
  and keep for each triple the one `k` that is its column. Distributing needs real entries, which is what the
  finiteness of `X` and of the values gives.

  The two programs read an index word differently when it is out of range (a negative row word is wrapped by one and
  dropped by the other; a column word past the end is dropped by one and clamped by the other), so the statement is made
  for row words that are non-negative and column words in `[0, 4096)`; there every reading is the word itself. A row
  word past the end is dropped by both programs and needs no hypothesis.

  The frames of the two kernels are the generated ones; the reference's frame is its generated run with the result
  dropped; the idealization rewrote nothing, so `preserves` is trivial.
-/
import proofs.«423321_j53515292508416_3_alg».proof.Defs
import proofs.«423321_j53515292508416_3_alg».proof.Proof.Gen.Kernel
import proofs.«423321_j53515292508416_3_alg».proof.Proof.Gen.Kernel.Skeleton
import proofs.«423321_j53515292508416_3_alg».proof.Proof.Gen.Kernel.Launch
import proofs.«423321_j53515292508416_3_alg».proof.Proof.Gen.Kernel.Points
import proofs.«423321_j53515292508416_3_alg».proof.Proof.Gen.Kernel.Frame
import proofs.«423321_j53515292508416_3_alg».proof.Proof.Gen.KernelIdeal
import proofs.«423321_j53515292508416_3_alg».proof.Proof.Gen.KernelIdeal.Skeleton
import proofs.«423321_j53515292508416_3_alg».proof.Proof.Gen.KernelIdeal.Launch
import proofs.«423321_j53515292508416_3_alg».proof.Proof.Gen.KernelIdeal.Points
import proofs.«423321_j53515292508416_3_alg».proof.Proof.Gen.KernelIdeal.Frame
import proofs.«423321_j53515292508416_3_alg».proof.Proof.Gen.ReferenceIdeal
import proofs.«423321_j53515292508416_3_alg».proof.Proof.Gen.Pre_finite_inputs
import proofs.«423321_j53515292508416_3_alg».proof.Proof.Gen.KernelIdeal.Value
import proofs.«423321_j53515292508416_3_alg».proof.Proof.Gen.ReferenceIdeal.Run
import proofs.«423321_j53515292508416_3_alg».proof.Proof.Gen.ReferenceIdeal.Read
import proofs.«423321_j53515292508416_3_alg».proof.Proof.PreRead
import proofs.«423321_j53515292508416_3_alg».proof.Proof.RefValue
import proofs.«423321_j53515292508416_3_alg».proof.Proof.Bridge
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the sparse product of the arguments: the kernel by its rows-against-rows contraction of the
    dense matrix with the densified sparse matrix, rearranged under the decoded precondition; the reference by reading
    its run entry by entry. -/
theorem algebraic : Cert.algebraic_KernelIdeal_ReferenceIdeal := by
  intro m ρ m' ρ' hpre hagree
  refine ⟨fun c => Cert.Spmm.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Dense.run m ρ)
    obtain ⟨hX, hv, hr, hc⟩ := Cert.PreRead.of_pre _ _ _ _ (hpre c)
    exact (congrArg₂ Cert.KernelIdeal.Dense.rowsDot (Cert.KernelIdeal.Dense.lhsArr_eq m c)
      (Cert.KernelIdeal.Dense.rhsArr_eq m c)).trans (Cert.Bridge.dense_eq_spec _ _ _ _ hX hv hr hc)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.Sparse.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
